-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1024 : Shape := ⟨3, ![64, 1024, 1024]⟩
abbrev S_ : Shape := ⟨0, ![]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel

variable [Facts]

def fn {F : FTy → Type} [FloatOps F] (main_arg0 : FVec F S64x1024x1024 .f32) : IVec S_ 1 :=
  let main_v0 : FVec F S64x1024x1024 .f32 := Host.absf main_arg0
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  main_v3
-- ==== Kernel.lean ====
abbrev S64x1024x1024 : Shape := ⟨3, ![64, 1024, 1024]⟩
abbrev S1x1 : Shape := ⟨2, ![1, 1]⟩
abbrev S4x1024x1024 : Shape := ⟨3, ![4, 1024, 1024]⟩
abbrev S4x1024 : Shape := ⟨2, ![4, 1024]⟩
abbrev S4x1024x1 : Shape := ⟨3, ![4, 1024, 1]⟩
abbrev S4x1 : Shape := ⟨2, ![4, 1]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 7
  | .vmem => 3
  | .smem => 0
  | _ => 0

abbrev bufTy : (tb : Table) → Fin (tcTables nBuf tb) → BufTy
  | .hbm, ⟨0, _⟩ => ⟨S64x1024x1024, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .i1⟩
  | .local _ .vmem, ⟨0, _⟩ => ⟨S4x1024x1024, .f32⟩
  | .local _ .vmem, ⟨1, _⟩ => ⟨S4x1024x1024, .f32⟩
  | .local _ .vmem, ⟨2, _⟩ => ⟨S1x1, .f32⟩
  | _, _ => ⟨S64x1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S4x1024x1024_S4x1024x1024_0_0_0 : ∀ a, (![0, 0, 0] : Fin 3 → Nat) a + S4x1024x1024.size a ≤ S4x1024x1024.size a
  h_S4x1024x1024 : 0 < S4x1024x1024.numel
  reduces_S4x1024x1024_S4x1024 : S4x1024x1024.Reduces [2] S4x1024
  shapeCasts_S4x1024_S4x1024x1 : S4x1024.ShapeCasts S4x1024x1
  reduces_S4x1024x1_S4x1 : S4x1024x1.Reduces [1] S4x1
  shapeCasts_S4x1_S4x1x1 : S4x1.ShapeCasts S4x1x1
  reduces_S4x1x1_S1x1 : S4x1x1.Reduces [0] S1x1
  shapeCasts_S1x1_S1x1x1 : S1x1.ShapeCasts S1x1x1
  shapeCasts_S1x1_S1x1 : S1x1.ShapeCasts S1x1
  shapeCasts_S1x1x1_S1x1 : S1x1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x1024.size a ≤ S64x1024x1024.size a
  hwx0_0 : ∀ i : grid0.Coords, EltTy.bits .f32 = 32 ∨ (Rect.block (s := S64x1024x1024) S4x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_arg0) S4x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x1024x1024 : Shape := ⟨3, ![64, 1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S64x1024x1024, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i1⟩
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S64x1024x1024_S_d0_1_2 : S64x1024x1024.ReducesTo [0, 1, 2] S_
  h_S_ : 0 < S_.numel

variable [Facts₀]

class Facts : Prop extends Facts₀ where

variable [Facts]
-- ==== Proof.RealEntries.lean ====
/-
  Arrays of extended reals all of whose entries are real numbers, and the operations that keep them so.

  On the extended reals the difference S − S is 0 only when S is a real number (at +∞ it is −∞), so a program that
  compares |S − S| with a threshold computes a fixed answer exactly when its sum S is finite. This module collects
  what finiteness of a sum needs: a finite sum of reals is a real; hence an add-reduction of an array of reals, over any
  set of axes, is an array of reals, and so is the host's reduction started from a real; a re-laid array, a sum of two
  arrays and a splat of the zero word are arrays of reals when their operands are; and, for an array S of reals, the
  comparison of |S − S| with any threshold is the comparison of |0| with it.
-/
import Idealize.ShloMosaic.PureOps.Ideal.Laws
import Idealize.ShloMosaic.Lib.ValueIdx

noncomputable section

namespace Cert.RealEntries

open Idealize.ShloMosaic

/-- Every entry of the array is a real number (neither infinity). -/
def AllReal {s : Shape} (v : s.Idx → EReal) : Prop := ∀ i, ∃ r : ℝ, v i = (r : EReal)

/-- A finite sum of real numbers, taken in the extended reals, is a real number. -/
theorem sum_real {ι : Type} (S : Finset ι) (f : ι → EReal) (hf : ∀ i ∈ S, ∃ r : ℝ, f i = (r : EReal)) :
    ∃ r : ℝ, ∑ i ∈ S, f i = (r : EReal) := by
  classical
  induction S using Finset.induction_on with
  | empty => exact ⟨0, by simp⟩
  | insert a S ha ih =>
    obtain ⟨ra, hra⟩ := hf a (Finset.mem_insert_self a S)
    obtain ⟨rs, hrs⟩ := ih (fun i hi => hf i (Finset.mem_insert_of_mem hi))
    exact ⟨ra + rs, by rw [Finset.sum_insert ha, hra, hrs, EReal.coe_add]⟩

/-- An add-reduction over any axes: each result entry is the sum of the source entries that reduce into it. -/
theorem reduceAdd_real {s t : Shape} {axes : List (Fin s.rank)} (h : s.Reduces axes t) (x : s.Idx → EReal)
    (hx : AllReal x) : AllReal (Ideal.reduceAdd h x) :=
  fun _ => sum_real _ _ (fun i _ => hx i)

/-- The kernel's `multi_reduction <add>` is that reduction. -/
theorem multiReduction_add_real {s t : Shape} {φ : FTy} {axes : List (Fin s.rank)} (src : FVec Ideal s φ)
    (acc : BitVec φ.bits) (h : s.Reduces axes t) (hφ : FKind.Formats φ) (hacc : acc = FKind.add.neutral φ hφ)
    (hx : AllReal (s := s) src) : AllReal (s := t) (multiReduction .add axes t src acc h hφ hacc) :=
  reduceAdd_real h src hx

/-- The host's sum: the initial value plus the sum of the operand entries that reduce into the result entry. -/
theorem hostReduceAdd_real {s t : Shape} {axes : List (Fin s.rank)} (h : s.ReducesTo axes t) (x : s.Idx → EReal)
    (init : EReal) (hx : AllReal x) (hinit : ∃ r : ℝ, init = (r : EReal)) : AllReal (Ideal.hostReduceAdd h x init) := by
  intro j
  obtain ⟨r0, hr0⟩ := hinit
  obtain ⟨r1, hr1⟩ := sum_real (Finset.univ.filter (fun i => h.drop i = j)) x (fun i _ => hx i)
  exact ⟨r0 + r1, by unfold Ideal.hostReduceAdd; rw [hr0, hr1, EReal.coe_add]⟩

/-- The host's `reduce … add` as a program prints it, its initial value the one entry of a rank-zero array. -/
theorem host_reduceAdd_real {s t u : Shape} {φ : FTy} {axes : List (Fin s.rank)} (x : FVec Ideal s φ)
    (init : u.Idx → Ideal φ) (h : s.ReducesTo axes t) (hu : 0 < u.numel) (hx : AllReal (s := s) x)
    (hinit : ∃ r : ℝ, init (Shape.Idx.first hu) = (r : EReal)) : AllReal (s := t) (Host.reduceAdd x init h hu) :=
  hostReduceAdd_real h x _ hx hinit

/-- A re-laid array has the entries of its source. -/
theorem shapeCast_real {s t : Shape} (x : s.Idx → EReal) (h : s.ShapeCasts t) (hx : AllReal x) :
    AllReal (shapeCast t x h) :=
  fun j => hx _

/-- The entrywise sum of two arrays of reals. -/
theorem addf_real {s : Shape} {φ : FTy} (a b : FVec Ideal s φ) (ha : AllReal (s := s) a) (hb : AllReal (s := s) b) :
    AllReal (s := s) (addf a b) := by
  intro i
  obtain ⟨ra, hra⟩ := ha i
  obtain ⟨rb, hrb⟩ := hb i
  exact ⟨ra + rb, by rw [ValueIdx.addf_apply, hra, hrb, EReal.coe_add]⟩

/-- The f32 zero word is the real number 0. -/
theorem zero_word_real : ∃ r : ℝ, Ideal.ofBits .f32 0x00000000#32 = (r : EReal) :=
  ⟨0, by rw [Ideal.ofBits_zero_f32, EReal.coe_zero]⟩

/-- For an array S of reals, S − S is the zero array: r − r = 0 in the reals. -/
theorem subf_self {s : Shape} {φ : FTy} (v : FVec Ideal s φ) (hv : AllReal (s := s) v) :
    subf v v = fun _ => (0 : EReal) := by
  funext i
  obtain ⟨r, hr⟩ := hv i
  rw [ValueIdx.subf_apply, hr, ← EReal.coe_sub, sub_self, EReal.coe_zero]

/-- What both programs compute from a real total: |0| compared with the threshold word. -/
def gapOfZero (ε : BitVec 32) : IVec ⟨0, ![]⟩ 1 :=
  cmpf (F := Ideal) .ogt (Host.absf (F := Ideal) (fun _ : (⟨0, ![]⟩ : Shape).Idx => (0 : EReal)))
    (constant (F := Ideal) ⟨0, ![]⟩ .f32 ε)

/-- For a scalar S that is a real, `|S − S| > ε` is `|0| > ε`. -/
theorem gap_self (v : FVec Ideal ⟨0, ![]⟩ .f32) (hv : AllReal (s := ⟨0, ![]⟩) v) (ε : BitVec 32) :
    cmpf (F := Ideal) .ogt (Host.absf (subf v v)) (constant ⟨0, ![]⟩ .f32 ε) = gapOfZero ε := by
  rw [subf_self v hv]; rfl

end Cert.RealEntries

end
-- ==== Proof.FiniteInputs.lean ====
/-
  The precondition, read back: every entry of the input is a real number.

  The precondition is `jnp.all(|x| < +∞)`, printed as an and-reduction of the comparison mask over all three axes from
  the constant 1, claimed to be 1. A fold by `and` that ends at 1 met only 1s, so the comparison holds at every index;
  and on the extended reals `max x (−x) < +∞` fails at both infinities, so it says that `x` is a real number.
-/
import proofs.«172993_j61933428409682_1_alg».proof.Pre_finite_inputs
import proofs.«172993_j61933428409682_1_alg».proof.Proof.RealEntries
import Idealize.ShloMosaic.Lib.ReduceAll

noncomputable section

namespace Cert.FiniteInputs

open Idealize.ShloMosaic Cert.RealEntries

/-- An extended real whose absolute value is below the f32 pattern of +∞ is a real number: |±∞| = +∞ is not below +∞. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of the input array is a real number. -/
theorem entries_real [Cert.Pre_finite_inputs.Facts]
    (x : FVec Ideal Cert.Pre_finite_inputs.S64x1024x1024 .f32)
    (h : Cert.Pre_finite_inputs.fn (F := Ideal) x = fun _ => 1#1) :
    AllReal (s := Cert.Pre_finite_inputs.S64x1024x1024) x := by
  intro i
  have h0 := congrFun h ValueIdx.ix0
  dsimp only [Cert.Pre_finite_inputs.fn] at h0
  haveI : Subsingleton Cert.Pre_finite_inputs.S_.Idx := ⟨fun a b => funext fun d => d.elim0⟩
  exact real_of_abs_lt_inf (x i) (Host.reduce_andi_all _ _ _ _ _ h0 i)

end Cert.FiniteInputs

end
-- ==== Proof.AccumulatorStep.lean ====
/-
  What one grid point leaves in the kernel's accumulator.

  The output window is a single 1×1 block that stays resident in its staging buffer for the whole grid. At a grid point
  the body loads its 4×1024×1024 input block `x`, reduces it to one number `blockSum x` by three successive single-axis
  sums, and stores `acc + blockSum x` over the accumulator `acc` it loaded. At the first point only, it first stores
  the zero splat, so the accumulator it then loads is that zero. Hence:

    first point:   the buffer ends at  `k0_pay2 x k0_pay1`   (zero, then the block's sum added);
    later points:  the buffer ends at  `k0_pay2 x acc`        (`acc` what the point before left).

  Both stores write the whole 1×1 buffer through the rectangle at offsets (0, 0), so what is read back is the last
  store's payload; both loads read whole buffers, so they read the contents.
-/
import proofs.«172993_j61933428409682_1_alg».proof.Proof.Gen.KernelIdeal.Frame
import Idealize.ShloMosaic.Lib.Pipeline.Value

set_option maxRecDepth 16384

noncomputable section

namespace Cert.KernelIdeal.Step

open Idealize.ShloMosaic Idealize.ShloMosaic.TcCoe Idealize.ShloMosaic.Tactic Idealize.SL.Sem
open Cert.KernelIdeal Cert.KernelIdeal.Gen

variable {F : FTy → Type} [FloatOps F]

/-- The accumulator's accesses are at offsets (0, 0), -/
theorem offsets2 : (![0, 0] : Fin 2 → Nat) = fun _ => 0 := by funext a; fin_cases a <;> rfl
/-- and the input block's at (0, 0, 0). -/
theorem offsets3 : (![0, 0, 0] : Fin 3 → Nat) = fun _ => 0 := by funext a; fin_cases a <;> rfl

/-- A later point: the one store writes the loaded accumulator plus the block's sum. -/
theorem later_point (c : Dev nD) (i : grid0.Coords) (arg1 : Memref sig .tc .vmem S4x1024x1024 .f32) (harg1 : arg1.IsWhole)
    (arg2 : Memref sig .tc .vmem S1x1 .f32) (harg2 : arg2.IsWhole) (hc0 : ¬cond0_0 i)
    (x : Vec F S4x1024x1024 .f32) (acc : Vec F S1x1 .f32) :
    out0_B_1 (F := F) c i arg1 harg1 arg2 harg2 hc0 x acc = k0_pay2 x acc := by
  unfold out0_B_1
  rw [View.read_writes_eq_canon _ _ _ (cover0_B_1 c i arg1 harg1 arg2 harg2 hc0 x acc)]
  unfold kernelRun0_B
  dsimp only
  sl_unfold_words
  rw [View.canon_unit_zero offsets2]
  simp only [View.readAt_eq_ld, harg1.read_unread, harg2.read_unread, View.ld_unit_zero (S := S4x1024x1024) offsets3,
    View.ld_unit_zero (S := S1x1) offsets2]

/-- The first point: the zero splat is stored, loaded back as the accumulator, and the block's sum added to it; the
    second store covers the first. -/
theorem first_point (c : Dev nD) (i : grid0.Coords) (arg1 : Memref sig .tc .vmem S4x1024x1024 .f32) (harg1 : arg1.IsWhole)
    (arg2 : Memref sig .tc .vmem S1x1 .f32) (harg2 : arg2.IsWhole) (hc0 : cond0_0 i)
    (x : Vec F S4x1024x1024 .f32) :
    out0_A_1 (F := F) c i arg1 harg1 arg2 harg2 hc0 x = k0_pay2 x (k0_pay1 (F := F)) := by
  unfold out0_A_1
  rw [View.read_writes_eq_canon _ _ _ (cover0_A_1 c i arg1 harg1 arg2 harg2 hc0 x)]
  unfold kernelRun0_A
  dsimp only
  sl_unfold_words
  rw [View.canon_cons_unit_zero (S := S1x1) offsets2]
  simp only [View.readAt_eq_ld, harg1.read_unread, View.ld_unit_zero (S := S4x1024x1024) offsets3,
    View.readCov_unit_zero (S := S1x1) _ offsets2]

end Cert.KernelIdeal.Step

end
-- ==== Proof.KernelResult.lean ====
/-
  The kernel's result at the ideal values, from a finite input: the comparison of |0| with the threshold.

  The kernel keeps one number in a 1×1 accumulator across its 16 grid points: zero at the first point, and at every
  point the sum of that point's 4×1024×1024 block of the input added to it. If every entry of the input is a real
  number, so is every entry of each block (a block's entries are entries of the array), so is each block's sum (three
  successive sums over one axis each, re-laid in between), and so — by induction on the grid point — is the accumulator
  after every point. The accumulator is written back once, after the last point, through the result window's one block,
  which is the whole 1×1 array; so the result array ends holding a real number S. The lines after the call compute
  `|S − S| > ε` from it, which for a real S is `|0| > ε`: the value this module's run ends with. Nowhere is S itself
  computed: all that is used of the sum is that it is finite.
-/
import proofs.«172993_j61933428409682_1_alg».proof.Proof.AccumulatorStep
import proofs.«172993_j61933428409682_1_alg».proof.Proof.RealEntries
import Idealize.ShloMosaic.Lib.StableHlo.Run

set_option maxRecDepth 16384

noncomputable section

namespace Cert.KernelIdeal.Result

open Idealize.ShloMosaic Idealize.ShloMosaic.TcCoe Idealize.SL.Sem
open Cert.KernelIdeal Cert.KernelIdeal.Gen Cert.RealEntries

variable (m : (ℓ : Loc nD τ sig) → Buf (Elt Ideal) ℓ) (ρ : Dev nD → PrngReg)

/-- The input array as the call finds it, and its block at a grid point, at their literal shapes. -/
abbrev xarr (c : Dev nD) : Vec Ideal S64x1024x1024 .f32 := V m c main_arg0
abbrev xblk (c : Dev nD) (t : Fin cfg0.N) : Vec Ideal S4x1024x1024 .f32 := iblk m c 0 t

/-! ## One grid point keeps the accumulator real -/

/-- The splat of the zero word. -/
theorem zeroSplat_real : AllReal (s := S1x1) (k0_pay1 (F := Ideal)) :=
  fun _ => zero_word_real

/-- `acc + blockSum x`: the sums over the lane axis, then the row axis, then the batch axis of an array of reals are
    arrays of reals, and so is their sum with a real accumulator. -/
theorem blockSum_real (x : Vec Ideal S4x1024x1024 .f32) (acc : Vec Ideal S1x1 .f32)
    (hx : AllReal (s := S4x1024x1024) x) (ha : AllReal (s := S1x1) acc) :
    AllReal (s := S1x1) (k0_pay2 (F := Ideal) x acc) := by
  unfold k0_pay2
  exact addf_real _ _ (shapeCast_real _ _ ha)
    (shapeCast_real _ _ (shapeCast_real _ _ (multiReduction_add_real _ _ _ _ _
      (shapeCast_real _ _ (multiReduction_add_real _ _ _ _ _
        (shapeCast_real _ _ (multiReduction_add_real _ _ _ _ _ hx)))))))

/-- A block's entries are entries of the array. -/
theorem xblk_real (c : Dev nD) (t : Fin cfg0.N) (hx : AllReal (s := S64x1024x1024) (xarr m c)) :
    AllReal (s := S4x1024x1024) (xblk m c t) :=
  fun _ => hx _

/-! ## The accumulator after every point -/

/-- By induction on the point: the first point adds its block's sum to zero, each later one to what the point before
    left. -/
theorem acc_real (c : Dev nD) (hx : AllReal (s := S64x1024x1024) (xarr m c)) :
    ∀ (n : ℕ) (hn : n < cfg0.N), AllReal (s := S1x1) (outsAt0 m c n hn) := by
  intro n
  induction n with
  | zero =>
    intro hn
    refine (congrArg (AllReal (s := S1x1)) (outsAt0_A m c ⟨0, hn⟩ (Nat.zero_mod _))).mpr ?_
    rw [Step.first_point]
    exact blockSum_real (xblk m c ⟨0, hn⟩) (k0_pay1 (F := Ideal)) (xblk_real m c ⟨0, hn⟩ hx) zeroSplat_real
  | succ n ih =>
    intro hn
    have hN : n + 1 < 16 := lt_of_lt_of_eq hn (show cfg0.N = 16 from N_0)
    have h0 : ¬ (⟨n + 1, hn⟩ : Fin cfg0.N).val % 16 = 0 := by dsimp only; omega
    refine (congrArg (AllReal (s := S1x1)) (outsAt0_B m c ⟨n + 1, hn⟩ h0)).mpr ?_
    rw [Step.later_point]
    exact blockSum_real (xblk m c ⟨n + 1, hn⟩) (outsAt0 m c n (Nat.lt_of_succ_lt hn)) (xblk_real m c ⟨n + 1, hn⟩ hx)
      (ih (Nat.lt_of_succ_lt hn))

/-! ## The result array after the call -/

/-- The last grid point, the only one after which the accumulator is written back. -/
abbrev lastPoint : Fin cfg0.N := ⟨15, by rw [show cfg0.N = 16 from N_0]; decide⟩

/-- The accumulator after the last point, as contents of the 1×1 result array. -/
abbrev total (c : Dev nD) : Buf (Elt Ideal) ((c : Thread nD τ).loc main_v0) := outsAt0 m c lastPoint.val lastPoint.isLt

/-- The result window's block at the last point starts at (0, 0) and has the array's extents, 1 × 1. -/
theorem lastBlock_facts : ∀ a : Fin 2, win0_1.index lastPoint a * win0_1.size a = 0
    ∧ win0_1.xsize (grid0.coords lastPoint) a = 1 ∧ S1x1.size a = 1 := by decide +kernel

/-- The one write-back writes the accumulator after the last point: its block, read through zero offsets, is the array. -/
theorem written_back (c : Dev nD) (t : Fin cfg0.N) (hf : (cfg0.win 1).flush t = true) :
    (dats m 0 c).flushed 1 t = ((cfg0.win 1).blk t).view.read (Elt Ideal) (total m c) := by
  have hN : t.val < 16 := lt_of_lt_of_eq t.isLt (show cfg0.N = 16 from N_0)
  have h15 : t.val = 15 := by have := (flush0_1 t).mp hf; omega
  obtain rfl : t = lastPoint := Fin.ext h15
  show (cfg0.win 1).cut (grid0.coords lastPoint) ((dats m 0 c).after 1 lastPoint) = _
  rw [after0_1]
  have hoff : (fun a => win0_1.index lastPoint a * main_v0.ty.shape.size a) = fun _ => 0 :=
    funext fun a => (lastBlock_facts a).1
  exact (Memref.read_access_unit_zero (Elt Ideal) main_v0 hoff (fun a => by rw [congrFun hoff a]; simp) (total m c)).symm

/-- That block covers the array's one index, so the array ends holding the accumulator after the last point. -/
theorem total_everywhere (c : Dev nD) : (dats m 0 c).arrAt 1 cfg0.N = total m c :=
  (dats m 0 c).arrAt_eq_of_cover 1 (total m c) (written_back m c) fun i =>
    ⟨lastPoint, (flush0_1 lastPoint).mpr rfl, by
      show i ∈ ((View.whole main_v0).slice (win0_1.rect lastPoint)).set
      rw [View.set_slice_whole, Rect.mem_set_unit]
      intro a
      obtain ⟨h1, h2, h3⟩ := lastBlock_facts a
      have hi : (i a : ℕ) < S1x1.size a := (i a).isLt
      rw [h1, h2]
      omega⟩

/-! ## The lines after the call -/

/-- The lines after the call re-lay the 1×1 result as a scalar S and compute `|S − S| > ε`; S is an entry of the
    accumulator after the last point, a real number, so this is `|0| > ε`. -/
theorem result_word (c : Dev nD) (hx : AllReal (s := S64x1024x1024) (xarr m c)) :
    Pipeline.afterTail₀ cfgs (dats m) 0 (V0 m) [hostOps1] c main_v4 = gapOfZero 0x358637BD#32 := by
  unfold Pipeline.afterTail₀
  show StableHlo.after hostOps1 _ (Proc.devRef .tc main_v4) = _
  after_results
  have hW : Pipeline.withArrays (cfgs 0).spec c (V0 m c) (fun w => (dats m 0 c).arrAt w (cfgs 0).N) (Proc.devRef .tc main_v0)
      = total m c :=
    (Pipeline.withArrays_arr spec0 launch0.win.arr_inj c _ _ 1).trans (total_everywhere m c)
  rw [hW]
  refine gap_self _ ?_ _
  intro i
  exact acc_real m c hx _ _ _

/-- The kernel program's run at the ideal values, from a memory whose input array holds reals only: every weakly fair
    execution terminates with the result at `|0| > ε` and the input unchanged. -/
theorem run (hx : ∀ c : Dev nD, AllReal (s := S64x1024x1024) (m ((c.tc : Thread nD τ).loc main_arg0))) :
    θ_run defs (onTc (τ := τ) (main (F := Ideal))) ⟨m, fun _ => 0, ρ⟩ (fun r => ∀ c : Dev nD,
      r.2.mem ((c.tc : Thread nD τ).loc main_v4) = gapOfZero 0x358637BD#32
      ∧ r.2.mem ((c.tc : Thread nD τ).loc main_arg0) = m ((c.tc : Thread nD τ).loc main_arg0)) :=
  (θ_run defs _ _).mono (fun _ h c =>
    ⟨((h c).2 main_v4 (by decide)).trans (result_word m c (hx c)),
     ((h c).1 0).trans (((dats m 0 c).arrAt_in 0 rfl _).trans ((A_eq m c 0).trans (V_main_arg0 m c)))⟩)
    (run_main m ρ)

end Cert.KernelIdeal.Result

end
-- ==== Proof.ReferenceResult.lean ====
/-
  The reference's result at the ideal values, from a finite input: the comparison of |0| with the threshold.

  The reference sums the whole input twice, each time as one host reduction over all three axes from the constant zero,
  and compares the absolute difference of the two totals with the threshold. The two totals are one and the same term;
  it is the zero word plus a finite sum of entries of the input, a real number when every entry is. So the difference is
  S − S for a real S, which is 0, and the result is `|0| > ε`.
-/
import proofs.«172993_j61933428409682_1_alg».proof.Proof.Gen.ReferenceIdeal.Run
import proofs.«172993_j61933428409682_1_alg».proof.Proof.RealEntries

noncomputable section

namespace Cert.ReferenceIdeal.Result

open Idealize.ShloMosaic Idealize.ShloMosaic.TcCoe Idealize.SL.Sem
open Cert.ReferenceIdeal Cert.ReferenceIdeal.Gen Cert.RealEntries

/-- The total of an input of reals, started from the zero word, is a real number. -/
theorem total_real (x : FVec Ideal S64x1024x1024 .f32) (hx : AllReal (s := S64x1024x1024) x) :
    AllReal (s := S_) (Host.reduceAdd x (constant (F := Ideal) S_ .f32 0x00000000#32) reducesTo_S64x1024x1024_S_d0_1_2 h_S_) :=
  host_reduceAdd_real x _ _ _ hx zero_word_real

/-- The reference program's run at the ideal values, from a memory whose input array holds reals only: every weakly
    fair execution terminates with the result at `|0| > ε` and the input unchanged. -/
theorem run (m : (ℓ : Loc nD τ sig) → Buf (Elt Ideal) ℓ) (ρ : Dev nD → PrngReg)
    (hx : ∀ c : Dev nD, AllReal (s := S64x1024x1024) (m ((c.tc : Thread nD τ).loc main_arg0))) :
    θ_run defs (onTc (τ := τ) (main (F := Ideal))) ⟨m, fun _ => 0, ρ⟩ (fun r => ∀ c : Dev nD,
      r.2.mem ((c.tc : Thread nD τ).loc main_v4) = gapOfZero 0x358637BD#32
      ∧ r.2.mem ((c.tc : Thread nD τ).loc main_arg0) = m ((c.tc : Thread nD τ).loc main_arg0)) :=
  (θ_run defs _ _).mono (fun _ h c =>
    ⟨(h c).1.trans (gap_self _ (total_real _ (hx c)) _), (h c).2⟩)
    (Cert.ReferenceIdeal.Value.run (F := Ideal) m ρ)

end Cert.ReferenceIdeal.Result

end
-- ==== Proof.lean ====
/-
  A full sum compared with itself: `|S − S| > ε` is the same fixed answer in both programs, because S is finite.

  The kernel adds up a 64×1024×1024 array block by block into a resident 1×1 accumulator and, after the call, compares
  `|S − S|` with the threshold ε for the total S it found; the reference takes the total twice as one host sum each and
  compares the absolute difference of the two with the same ε. On the extended reals S − S is 0 for a real S but not for
  an infinite one (+∞ − +∞ = −∞), so the answer is a fixed one exactly when the total is finite — and it is, on both
  sides, under the precondition that every entry of the input is finite: a finite sum of reals is a real. So neither total
  is ever computed, and the two totals are never compared with one another: each program's result is shown to be
  `|0| > ε` on its own (Proof/KernelResult.lean, Proof/ReferenceResult.lean), from the input's entries being reals
  (Proof/FiniteInputs.lean) and the operations that keep an array's entries real (Proof/RealEntries.lean).

  The three frames: the kernel's at both instances is the generated frame; the reference has no kernel, and its frame is
  its run with the result dropped. The kernel's idealization is its own text read at the ideal values, no operation rewritten, so `preserves` is trivial.
-/
import proofs.«172993_j61933428409682_1_alg».proof.Defs
import proofs.«172993_j61933428409682_1_alg».proof.Proof.Gen.Kernel
import proofs.«172993_j61933428409682_1_alg».proof.Proof.Gen.Kernel.Frame
import proofs.«172993_j61933428409682_1_alg».proof.Proof.Gen.KernelIdeal
import proofs.«172993_j61933428409682_1_alg».proof.Proof.Gen.KernelIdeal.Frame
import proofs.«172993_j61933428409682_1_alg».proof.Proof.Gen.ReferenceIdeal
import proofs.«172993_j61933428409682_1_alg».proof.Proof.Gen.ReferenceIdeal.Run
import proofs.«172993_j61933428409682_1_alg».proof.Proof.Gen.Pre_finite_inputs
import proofs.«172993_j61933428409682_1_alg».proof.Proof.FiniteInputs
import proofs.«172993_j61933428409682_1_alg».proof.Proof.KernelResult
import proofs.«172993_j61933428409682_1_alg».proof.Proof.ReferenceResult
import Idealize.ShloMosaic.Adequacy
import Idealize.ShloMosaic.Init

noncomputable section

namespace Cert.Proof

open Idealize.ShloMosaic Idealize.ShloMosaic.TcCoe Idealize.SL.Sem Cert.RealEntries

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the input, both programs end at `|0| > ε`: the precondition makes the kernel's
    input an array of reals, the agreement carries that to the reference's, and each run then ends there. -/
theorem algebraic : Cert.algebraic_KernelIdeal_ReferenceIdeal := by
  intro m ρ m' ρ' hpre hagree
  have hx : ∀ c : Dev Cert.KernelIdeal.nD, AllReal (s := Cert.KernelIdeal.S64x1024x1024)
      (m ((c.tc : Thread Cert.KernelIdeal.nD Cert.KernelIdeal.τ).loc Cert.KernelIdeal.main_arg0)) :=
    fun c => Cert.FiniteInputs.entries_real _ (hpre c)
  refine ⟨fun _ => gapOfZero 0x358637BD#32, Cert.KernelIdeal.Result.run m ρ hx,
    Cert.ReferenceIdeal.Result.run m' ρ' (fun c => ?_)⟩
  rw [hagree c]
  exact hx c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
